-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000x256 : Shape := ⟨2, ![320000, 256]⟩
abbrev S20000x1 : Shape := ⟨2, ![20000, 1]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S20000x1 : S_.BroadcastsInDim S20000x1 (![] : Fin 0 → Fin S20000x1.rank)
  reducesTo_S20000x1_S_d0_1 : S20000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x256 .f32) (main_arg10 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S20000x256 .f32) (main_arg1 : FVec F S320000x256 .f32) (main_arg2 : FVec F S20000x1 .f32) (main_arg3 : IVec S320000 32) (main_arg4 : IVec S320000 32) (main_arg5 : FVec F S256x256 .f32) (main_arg6 : FVec F S256 .f32) (main_arg7 : FVec F S256x256 .f32) (main_arg8 : FVec F S256 .f32) (main_arg9 : FVec F S256x256 .f32) (main_arg10 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S20000x1 .f32 := Host.absf main_arg2
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S20000x256 : Shape := ⟨2, ![20000, 256]⟩
abbrev S320000x256 : Shape := ⟨2, ![320000, 256]⟩
abbrev S20000x1 : Shape := ⟨2, ![20000, 1]⟩
abbrev S320000 : Shape := ⟨1, ![320000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S_ : Shape := ⟨0, ![]⟩
abbrev S320000x1 : Shape := ⟨2, ![320000, 1]⟩

abbrev nBuf : Space → Nat
  | .hbm => 34
  | .vmem => 26
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S20000x1, .f32⟩
  | .hbm, ⟨3, _⟩ => ⟨S320000, .i32⟩
  | .hbm, ⟨4, _⟩ => ⟨S320000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S20000x256, .f32⟩
  | .hbm, ⟨18, _⟩ => ⟨S320000x256, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x256, .f32⟩
  | .hbm, ⟨28, _⟩ => ⟨S320000x256, .f32⟩
  | .hbm, ⟨29, _⟩ => ⟨S_, .f32⟩
  | .hbm, ⟨30, _⟩ => ⟨S20000x256, .f32⟩
  | .hbm, ⟨31, _⟩ => ⟨S320000x1, .i32⟩
  | .hbm, ⟨32, _⟩ => ⟨S20000x256, .f32⟩
  | .hbm, ⟨33, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S320000 : S_.BroadcastsInDim S320000 (![] : Fin 0 → Fin S320000.rank)
  bcast_S320000_S320000x1_0 : S320000.BroadcastsInDim S320000x1 (![0] : Fin 1 → Fin S320000x1.rank)
  shapeCasts_S2000x256_S2000x256 : S2000x256.ShapeCasts S2000x256
  bcast_S_S20000x256 : S_.BroadcastsInDim S20000x256 (![] : Fin 0 → Fin S20000x256.rank)
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S320000x256.size a
  hwx1_3 : ∀ i : grid1.Coords, EltTy.bits .f32 = 32 ∨ (Rect.block (s := S320000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S320000x256.size a
  hwx2_0 : ∀ i : grid2.Coords, EltTy.bits .f32 = 32 ∨ (Rect.block (s := S320000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S320000x256.size a
  hwx2_1 : ∀ i : grid2.Coords, EltTy.bits .f32 = 32 ∨ (Rect.block (s := S320000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S320000x256.size a
  hwx2_2 : ∀ i : grid2.Coords, EltTy.bits .f32 = 32 ∨ (Rect.block (s := S320000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S20000x256.size a
  hwx3_4 : ∀ i : grid3.Coords, EltTy.bits .f32 = 32 ∨ (Rect.block (s := S20000x256) S2000x256.size (cc3_transform_4 i) (hinb3_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S20000x256 : Shape := ⟨2, ![20000, 256]⟩
abbrev S320000x256 : Shape := ⟨2, ![320000, 256]⟩
abbrev S20000x1 : Shape := ⟨2, ![20000, 1]⟩
abbrev S320000 : Shape := ⟨1, ![320000]⟩
abbrev S256x256 : Shape := ⟨2, ![256, 256]⟩
abbrev S256 : Shape := ⟨1, ![256]⟩
abbrev S1x256 : Shape := ⟨2, ![1, 256]⟩
abbrev S_ : Shape := ⟨0, ![]⟩
abbrev S320000x1 : Shape := ⟨2, ![320000, 1]⟩

abbrev nBuf : Space → Nat
  | .hbm => 92
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S320000x256, .f32⟩
  | .hbm, ⟨2, _⟩ => ⟨S20000x1, .f32⟩
  | .hbm, ⟨3, _⟩ => ⟨S320000, .i32⟩
  | .hbm, ⟨4, _⟩ => ⟨S320000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S20000x256, .f32⟩
  | .hbm, ⟨13, _⟩ => ⟨S1x256, .f32⟩
  | .hbm, ⟨14, _⟩ => ⟨S20000x256, .f32⟩
  | .hbm, ⟨15, _⟩ => ⟨S20000x256, .f32⟩
  | .hbm, ⟨16, _⟩ => ⟨S_, .f32⟩
  | .hbm, ⟨17, _⟩ => ⟨S20000x256, .f32⟩
  | .hbm, ⟨18, _⟩ => ⟨S20000x256, .f32⟩
  | .hbm, ⟨19, _⟩ => ⟨S20000x256, .f32⟩
  | .hbm, ⟨20, _⟩ => ⟨S20000x256, .f32⟩
  | .hbm, ⟨21, _⟩ => ⟨S20000x256, .i1⟩
  | .hbm, ⟨22, _⟩ => ⟨S20000x256, .f32⟩
  | .hbm, ⟨23, _⟩ => ⟨S20000x256, .f32⟩
  | .hbm, ⟨24, _⟩ => ⟨S20000x256, .f32⟩
  | .hbm, ⟨25, _⟩ => ⟨S20000x256, .f32⟩
  | .hbm, ⟨26, _⟩ => ⟨S20000x256, .f32⟩
  | .hbm, ⟨27, _⟩ => ⟨S20000x256, .f32⟩
  | .hbm, ⟨28, _⟩ => ⟨S20000x256, .f32⟩
  | .hbm, ⟨29, _⟩ => ⟨S20000x256, .f32⟩
  | .hbm, ⟨30, _⟩ => ⟨S20000x256, .f32⟩
  | .hbm, ⟨31, _⟩ => ⟨S20000x256, .f32⟩
  | .hbm, ⟨32, _⟩ => ⟨S256x256, .f32⟩
  | .hbm, ⟨33, _⟩ => ⟨S320000x256, .f32⟩
  | .hbm, ⟨34, _⟩ => ⟨S1x256, .f32⟩
  | .hbm, ⟨35, _⟩ => ⟨S320000x256, .f32⟩
  | .hbm, ⟨36, _⟩ => ⟨S320000x256, .f32⟩
  | .hbm, ⟨37, _⟩ => ⟨S_, .f32⟩
  | .hbm, ⟨38, _⟩ => ⟨S320000x256, .f32⟩
  | .hbm, ⟨39, _⟩ => ⟨S320000x256, .f32⟩
  | .hbm, ⟨40, _⟩ => ⟨S320000x256, .f32⟩
  | .hbm, ⟨41, _⟩ => ⟨S320000x256, .f32⟩
  | .hbm, ⟨42, _⟩ => ⟨S320000x256, .i1⟩
  | .hbm, ⟨43, _⟩ => ⟨S320000x256, .f32⟩
  | .hbm, ⟨44, _⟩ => ⟨S320000x256, .f32⟩
  | .hbm, ⟨45, _⟩ => ⟨S320000x256, .f32⟩
  | .hbm, ⟨46, _⟩ => ⟨S320000x256, .f32⟩
  | .hbm, ⟨47, _⟩ => ⟨S320000x256, .f32⟩
  | .hbm, ⟨48, _⟩ => ⟨S320000x256, .f32⟩
  | .hbm, ⟨49, _⟩ => ⟨S320000x256, .f32⟩
  | .hbm, ⟨50, _⟩ => ⟨S320000x256, .f32⟩
  | .hbm, ⟨51, _⟩ => ⟨S320000x256, .f32⟩
  | .hbm, ⟨52, _⟩ => ⟨S320000x256, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x256, .f32⟩
  | .hbm, ⟨62, _⟩ => ⟨S320000x256, .f32⟩
  | .hbm, ⟨63, _⟩ => ⟨S_, .f32⟩
  | .hbm, ⟨64, _⟩ => ⟨S320000x256, .f32⟩
  | .hbm, ⟨65, _⟩ => ⟨S320000x256, .f32⟩
  | .hbm, ⟨66, _⟩ => ⟨S_, .f32⟩
  | .hbm, ⟨67, _⟩ => ⟨S20000x256, .f32⟩
  | .hbm, ⟨68, _⟩ => ⟨S320000x1, .i32⟩
  | .hbm, ⟨69, _⟩ => ⟨S20000x256, .f32⟩
  | .hbm, ⟨70, _⟩ => ⟨S20000x256, .f32⟩
  | .hbm, ⟨71, _⟩ => ⟨S256x256, .f32⟩
  | .hbm, ⟨72, _⟩ => ⟨S20000x256, .f32⟩
  | .hbm, ⟨73, _⟩ => ⟨S1x256, .f32⟩
  | .hbm, ⟨74, _⟩ => ⟨S20000x256, .f32⟩
  | .hbm, ⟨75, _⟩ => ⟨S20000x256, .f32⟩
  | .hbm, ⟨76, _⟩ => ⟨S_, .f32⟩
  | .hbm, ⟨77, _⟩ => ⟨S20000x256, .f32⟩
  | .hbm, ⟨78, _⟩ => ⟨S20000x256, .f32⟩
  | .hbm, ⟨79, _⟩ => ⟨S20000x256, .f32⟩
  | .hbm, ⟨80, _⟩ => ⟨S20000x256, .f32⟩
  | .hbm, ⟨81, _⟩ => ⟨S20000x256, .i1⟩
  | .hbm, ⟨82, _⟩ => ⟨S20000x256, .f32⟩
  | .hbm, ⟨83, _⟩ => ⟨S20000x256, .f32⟩
  | .hbm, ⟨84, _⟩ => ⟨S20000x256, .f32⟩
  | .hbm, ⟨85, _⟩ => ⟨S20000x256, .f32⟩
  | .hbm, ⟨86, _⟩ => ⟨S20000x256, .f32⟩
  | .hbm, ⟨87, _⟩ => ⟨S20000x256, .f32⟩
  | .hbm, ⟨88, _⟩ => ⟨S20000x256, .f32⟩
  | .hbm, ⟨89, _⟩ => ⟨S20000x256, .f32⟩
  | .hbm, ⟨90, _⟩ => ⟨S20000x256, .f32⟩
  | .hbm, ⟨91, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c : Ref sig .tc := ⟨.hbm, 53, rfl⟩
abbrev main_v16 : Ref sig .tc := ⟨.hbm, 54, rfl⟩
abbrev main_v17 : Ref sig .tc := ⟨.hbm, 55, rfl⟩
abbrev main_c_0 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_call2_cst : Ref sig .tc := ⟨.hbm, 63, rfl⟩
abbrev main_call2_v0 : Ref sig .tc := ⟨.hbm, 64, rfl⟩
abbrev main_v24 : Ref sig .tc := ⟨.hbm, 65, rfl⟩
abbrev main_cst : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S320000 : S_.BroadcastsInDim S320000 (![] : Fin 0 → Fin S320000.rank)
  bcast_S320000_S320000x1_0 : S320000.BroadcastsInDim S320000x1 (![0] : Fin 1 → Fin S320000x1.rank)
  dot_S20000x256_S256x256_S20000x256_1_0_0_1_n_n_wf : DotDims.WF S20000x256 S256x256 S20000x256 [1] [0] [0] [1] [] []
  dot_S320000x256_S256x256_S320000x256_1_0_0_1_n_n_wf : DotDims.WF S320000x256 S256x256 S320000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1

variable [Facts₀]

def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf

class Facts : Prop extends Facts₀ where

variable [Facts]
-- ==== Proof.Spec.lean ====
/-
  What the layer computes, entry by entry, on the extended reals.

  The layer is a message-passing step: node and edge features go through an affine map followed by the
  activation a(z) = z · tanh (softplus z), softplus z = max z 0 + log (1 + e^(-|z - 0|)); every edge adds its source
  node's row to its own and clamps at zero; the clamped rows are summed into their destination nodes; and the
  nodes' rows plus those sums go through a third affine map and the activation.

  Both programs spell softplus behind a test "z - 0 differs from z - 0", which no extended real passes: the test
  keeps the branch with the formula. They differ in two spellings only: the kernel writes 0 - |z - 0| where the
  host writes -|z - 0|, and the kernel's test is the ordered "differs" where the host's is the unordered one; on the
  extended reals these are the same value and the same test.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The value of the all-zero f32 word. -/
abbrev z0 : Ideal .f32 := Ideal.ofBits .f32 0x00000000#32

/-- The activation on one entry in the kernel's spelling: the exponent is 0 - |z - 0|, the test the ordered one. -/
def actK (z : Ideal .f32) : Ideal .f32 :=
  FloatOps.mulf z (FloatOps.tanh (Scalar.select (FloatOps.cmpf .one (FloatOps.subf z z0) (FloatOps.subf z z0))
    (FloatOps.addf z z0)
    (FloatOps.addf (FloatOps.maximumf z z0) (FloatOps.log1p (FloatOps.exp (FloatOps.subf z0 (FloatOps.absf (FloatOps.subf z z0))))))))

/-- The activation on one entry in the host's spelling: the exponent is -|z - 0|, the test the unordered one. -/
def actH (z : Ideal .f32) : Ideal .f32 :=
  FloatOps.mulf z (FloatOps.hostUnary .tanh (Scalar.select (FloatOps.cmpf .une (FloatOps.subf z z0) (FloatOps.subf z z0))
    (FloatOps.addf z z0)
    (FloatOps.addf (FloatOps.maximumf z z0) (FloatOps.hostUnary .log1p (FloatOps.hostUnary .exp (FloatOps.hostNegf (FloatOps.hostAbsf (FloatOps.subf z z0))))))))

/-- The two spellings are one function: 0 - a = -a for every extended real a, the ordered and the unordered
    "differs" are the same comparison, and the host's exponential, logarithm and hyperbolic tangent are the kernel's. -/
theorem actK_eq_actH (z : Ideal .f32) : actK z = actH z := by
  unfold actK actH
  have h0 : (z0 : EReal) = 0 := Ideal.ofBits_zero_f32
  have hneg : ∀ a : EReal, FloatOps.subf (F := Ideal) (φ := .f32) z0 a = FloatOps.hostNegf (F := Ideal) (φ := .f32) a := fun a => by
    show (z0 : EReal) - a = -a
    rw [h0, zero_sub]
  rw [hneg]
  rfl

/-- Rows of x · Wᵀ + b through the activation: entry (r, q) is a (Σ_k x[r, k] · W[q, k] + b[q]). -/
def mlpG (M : Nat) (x : (⟨2, ![M, 256]⟩ : Shape).Idx → EReal) (w : (⟨2, ![256, 256]⟩ : Shape).Idx → EReal)
    (b : (⟨1, ![256]⟩ : Shape).Idx → EReal) : (⟨2, ![M, 256]⟩ : Shape).Idx → EReal :=
  fun i => actH ((∑ k : Fin 256, x (ix2 ⟨(i 0).val, idx2_lt0 i⟩ k) * w (ix2 ⟨(i 1).val, idx2_lt1 i⟩ k))
    + b (ix1 ⟨(i 1).val, idx2_lt1 i⟩))

/-- The message of an edge: its source node's row plus its own, clamped at zero. -/
def reluSum (E : Nat) (g y : (⟨2, ![E, 256]⟩ : Shape).Idx → EReal) : (⟨2, ![E, 256]⟩ : Shape).Idx → EReal :=
  fun i => max (g i + y i) z0

/-- The sum of two arrays, entry by entry. -/
def sum2 (M : Nat) (x a : (⟨2, ![M, 256]⟩ : Shape).Idx → EReal) : (⟨2, ![M, 256]⟩ : Shape).Idx → EReal :=
  fun i => x i + a i

end Cert.Spec

end
-- ==== Proof.Blk.lean ====
/-
  One row block of the kernels' bodies, entry by entry.

  Each of the three bodies with a matrix product takes a block X of 2000 rows, the whole 256 × 256 matrix Wt (already
  transposed) and the bias as a 1 × 256 row, and stores a (X · Wt + bias) where a is the activation. At entry (p, q) that
  is a (Σ_k X[p, k] · Wt[k, q] + bias[0, q]): the product into a zero accumulator is the plain sum over the contracted
  axis, the narrowing of the operands changes no value on the extended reals, and the bias row is repeated down
  the rows. The last body first adds a second block to X entry by entry. The remaining body has no product: it adds
  two blocks and clamps at zero.
-/
import proofs.«108845_j30554397343953_1_alg».proof.Proof.Gen.KernelIdeal.Skeleton
import proofs.«108845_j30554397343953_1_alg».proof.Proof.Spec
import Idealize.ShloMosaic.Lib.Pipeline.Value
import Idealize.ShloMosaic.Lib.ValueIdx
import Idealize.ShloMosaic.PureOps.Ideal.Laws

noncomputable section

namespace Cert.KernelIdeal.Blk

open Cert.KernelIdeal Cert.KernelIdeal.Gen Idealize.ShloMosaic Idealize.ShloMosaic.ValueIdx

/-! ## The product's operand indices: output entry (p, q) and contraction index k meet X at (p, k) and Wt at (k, q) -/

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a 2000 × 256 block and a 256 × 256 matrix into a zero accumulator, at entry (p, q): Σ_k X[p, k] · Wt[k, q]. -/
theorem matmul_zero_apply {φ₁ φ₂ : FTy} (x : FVec Ideal S2000x256 φ₁) (w : FVec Ideal S256x256 φ₂) (p : Fin 2000) (q : Fin 256) :
    matmul dot_S2000x256_S256x256_S2000x256_1_0_0_1_n_n none x w (constant S2000x256 .f32 0x00000000#32) (ix2 p q)
      = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The bias row repeated down the rows, at entry (p, q): bias[0, q]. -/
theorem bias_apply (b : Vec Ideal S1x256 .f32) (p : Fin 2000) (q : Fin 256) :
    broadcastTo S2000x256 (shapeCast S1x256 b shapeCasts_S1x256_S1x256) broadcasts_S1x256_S2000x256 (ix2 p q) = b (ix2 (0 : Fin 1) q) := by
  rw [shapeCast_self]
  exact broadcastTo_apply b broadcasts_S1x256_S2000x256 (ix2 p q) (ix2 (0 : Fin 1) q) (fun a => match a with
    | ⟨0, _⟩ => by show 0 = if (1 : Nat) = 1 then 0 else _; rw [if_pos rfl]
    | ⟨1, _⟩ => by show q.val = if (256 : Nat) = 1 then 0 else q.val; rw [if_neg (by decide)])

/-! ## The payloads at an entry -/

/-- The first body's stored value at (p, q): the activation of Σ_k X[p, k] · Wt[k, q] + bias[0, q]. -/
theorem k0_pay1_apply (x : Vec Ideal S2000x256 .f32) (w : Vec Ideal S256x256 .f32) (b : Vec Ideal S1x256 .f32) (p : Fin 2000) (q : Fin 256) :
    k0_pay1 x w b (ix2 p q) = Cert.Spec.actK ((∑ k : Fin 256, x (ix2 p k) * w (ix2 k q)) + b (ix2 (0 : Fin 1) q)) := by
  have e : k0_pay1 x w b (ix2 p q) = Cert.Spec.actK ((addf (matmul dot_S2000x256_S256x256_S2000x256_1_0_0_1_n_n none (truncf .bf16 x bitsLt_bf16_f32)
      (truncf .bf16 (shapeCast S256x256 w shapeCasts_S256x256_S256x256) bitsLt_bf16_f32) (constant S2000x256 .f32 0x00000000#32))
      (broadcastTo S2000x256 (shapeCast S1x256 b shapeCasts_S1x256_S1x256) broadcasts_S1x256_S2000x256)) (ix2 p q)) := rfl
  rw [e, addf_apply, matmul_zero_apply, bias_apply, shapeCast_self]
  rfl

/-- The second body is the first one's text. -/
theorem k1_pay1_apply (x : Vec Ideal S2000x256 .f32) (w : Vec Ideal S256x256 .f32) (b : Vec Ideal S1x256 .f32) (p : Fin 2000) (q : Fin 256) :
    k1_pay1 x w b (ix2 p q) = Cert.Spec.actK ((∑ k : Fin 256, x (ix2 p k) * w (ix2 k q)) + b (ix2 (0 : Fin 1) q)) :=
  k0_pay1_apply x w b p q

/-- The last body's stored value at (p, q): the activation of Σ_k (X[p, k] + A[p, k]) · Wt[k, q] + bias[0, q]. -/
theorem k3_pay1_apply (x a : Vec Ideal S2000x256 .f32) (w : Vec Ideal S256x256 .f32) (b : Vec Ideal S1x256 .f32) (p : Fin 2000) (q : Fin 256) :
    k3_pay1 x a w b (ix2 p q) = Cert.Spec.actK ((∑ k : Fin 256, (x (ix2 p k) + a (ix2 p k)) * w (ix2 k q)) + b (ix2 (0 : Fin 1) q)) := by
  have e : k3_pay1 x a w b (ix2 p q) = Cert.Spec.actK ((addf (matmul dot_S2000x256_S256x256_S2000x256_1_0_0_1_n_n none
      (truncf .bf16 (addf (shapeCast S2000x256 x shapeCasts_S2000x256_S2000x256) (shapeCast S2000x256 a shapeCasts_S2000x256_S2000x256)) bitsLt_bf16_f32)
      (truncf .bf16 (shapeCast S256x256 w shapeCasts_S256x256_S256x256) bitsLt_bf16_f32) (constant S2000x256 .f32 0x00000000#32))
      (broadcastTo S2000x256 (shapeCast S1x256 b shapeCasts_S1x256_S1x256) broadcasts_S1x256_S2000x256)) (ix2 p q)) := rfl
  rw [e, addf_apply, matmul_zero_apply, bias_apply, shapeCast_self, shapeCast_self, shapeCast_self]
  rfl

/-- The combining body's stored value at an entry: the sum of the two blocks' entries, clamped at zero. -/
theorem k2_pay1_apply (x y : Vec Ideal S2000x256 .f32) (j : S2000x256.Idx) :
    k2_pay1 x y j = max (x j + y j) Cert.Spec.z0 := by
  have e : k2_pay1 x y j = max ((shapeCast S2000x256 x shapeCasts_S2000x256_S2000x256) j + (shapeCast S2000x256 y shapeCasts_S2000x256_S2000x256) j) Cert.Spec.z0 := rfl
  rw [e, shapeCast_self, shapeCast_self]

/-! ## The same at an index that is not yet split into its coordinates -/

theorem k0_pay1_at (x : Vec Ideal S2000x256 .f32) (w : Vec Ideal S256x256 .f32) (b : Vec Ideal S1x256 .f32) (j : S2000x256.Idx) :
    k0_pay1 x w b j = Cert.Spec.actK ((∑ k : Fin 256, x (ix2 ⟨(j 0).val, idx2_lt0 j⟩ k) * w (ix2 k ⟨(j 1).val, idx2_lt1 j⟩))
      + b (ix2 (0 : Fin 1) ⟨(j 1).val, idx2_lt1 j⟩)) := by
  obtain ⟨p, q, rfl⟩ : ∃ (p : Fin 2000) (q : Fin 256), j = ix2 p q := ⟨j 0, j 1, eq_ix2 j⟩
  exact k0_pay1_apply x w b p q

theorem k1_pay1_at (x : Vec Ideal S2000x256 .f32) (w : Vec Ideal S256x256 .f32) (b : Vec Ideal S1x256 .f32) (j : S2000x256.Idx) :
    k1_pay1 x w b j = Cert.Spec.actK ((∑ k : Fin 256, x (ix2 ⟨(j 0).val, idx2_lt0 j⟩ k) * w (ix2 k ⟨(j 1).val, idx2_lt1 j⟩))
      + b (ix2 (0 : Fin 1) ⟨(j 1).val, idx2_lt1 j⟩)) :=
  k0_pay1_at x w b j

theorem k3_pay1_at (x a : Vec Ideal S2000x256 .f32) (w : Vec Ideal S256x256 .f32) (b : Vec Ideal S1x256 .f32) (j : S2000x256.Idx) :
    k3_pay1 x a w b j = Cert.Spec.actK ((∑ k : Fin 256, (x (ix2 ⟨(j 0).val, idx2_lt0 j⟩ k) + a (ix2 ⟨(j 0).val, idx2_lt0 j⟩ k)) * w (ix2 k ⟨(j 1).val, idx2_lt1 j⟩))
      + b (ix2 (0 : Fin 1) ⟨(j 1).val, idx2_lt1 j⟩)) := by
  obtain ⟨p, q, rfl⟩ : ∃ (p : Fin 2000) (q : Fin 256), j = ix2 p q := ⟨j 0, j 1, eq_ix2 j⟩
  exact k3_pay1_apply x a w b p q

end Cert.KernelIdeal.Blk

end
-- ==== Proof.Rows.lean ====
/-
  Rows of x · Wt + bias through the activation, with the operands as the launches find them.

  The host transposes each weight matrix and reshapes each bias to one row before the launches, so a launch meets
  Wt[k, q] = W[q, k] and bias2[0, q] = bias[q]. With those two readings, and the kernel's spelling of the activation
  being the host's on every extended real, the launches' whole-array function is the specification's.
-/
import proofs.«108845_j30554397343953_1_alg».proof.Proof.Spec
import Idealize.ShloMosaic.Lib.Pipeline.Value
import Idealize.ShloMosaic.Lib.ValueIdx

noncomputable section

namespace Cert.Rows

open Idealize.ShloMosaic Idealize.ShloMosaic.ValueIdx

/-- Entry (r, q) of the launches' function: the kernel's activation of Σ_k x[r, k] · Wt[k, q] + bias2[0, q]. -/
def rowsG (M : Nat) (x : (⟨2, ![M, 256]⟩ : Shape).Idx → EReal) (wt : (⟨2, ![256, 256]⟩ : Shape).Idx → EReal)
    (b2 : (⟨2, ![1, 256]⟩ : Shape).Idx → EReal) : (⟨2, ![M, 256]⟩ : Shape).Idx → EReal :=
  fun i => Cert.Spec.actK ((∑ k : Fin 256, x (ix2 ⟨(i 0).val, idx2_lt0 i⟩ k) * wt (ix2 k ⟨(i 1).val, idx2_lt1 i⟩))
    + b2 (ix2 (0 : Fin 1) ⟨(i 1).val, idx2_lt1 i⟩))

/-- The transposed matrix at (k, q) is the matrix at (q, k). -/
theorem transpose_at (x5 : (⟨2, ![256, 256]⟩ : Shape).Idx → EReal)
    (ht : (⟨2, ![256, 256]⟩ : Shape).Transposes [1, 0] ⟨2, ![256, 256]⟩) (k q : Fin 256) :
    transpose ⟨2, ![256, 256]⟩ [1, 0] x5 ht (ix2 k q) = x5 (ix2 q k) :=
  transpose_apply [1, 0] x5 ht (ix2 k q) (ix2 q k) (fun b => match b with
    | ⟨0, _⟩ => rfl
    | ⟨1, _⟩ => rfl)

/-- The bias as one row, at (0, q), is the bias at q. -/
theorem reshape_at (x6 : (⟨1, ![256]⟩ : Shape).Idx → EReal)
    (hs : (⟨1, ![256]⟩ : Shape).ShapeCasts ⟨2, ![1, 256]⟩) (q : Fin 256) :
    shapeCast ⟨2, ![1, 256]⟩ x6 hs (ix2 (0 : Fin 1) q) = x6 (ix1 q) := by
  rw [shapeCast_addUnit_apply ![256] x6 hs (ix2 (0 : Fin 1) q)]
  exact congrArg x6 (funext fun a => match a with | ⟨0, _⟩ => rfl)

/-- With the transposed matrix and the one-row bias, the launches' function is the specification's. -/
theorem rowsG_eq (M : Nat) (x : (⟨2, ![M, 256]⟩ : Shape).Idx → EReal) (x5 : (⟨2, ![256, 256]⟩ : Shape).Idx → EReal)
    (x6 : (⟨1, ![256]⟩ : Shape).Idx → EReal) (ht : (⟨2, ![256, 256]⟩ : Shape).Transposes [1, 0] ⟨2, ![256, 256]⟩)
    (hs : (⟨1, ![256]⟩ : Shape).ShapeCasts ⟨2, ![1, 256]⟩) :
    rowsG M x (transpose ⟨2, ![256, 256]⟩ [1, 0] x5 ht) (shapeCast ⟨2, ![1, 256]⟩ x6 hs) = Cert.Spec.mlpG M x x5 x6 := by
  funext i
  unfold rowsG Cert.Spec.mlpG
  rw [Cert.Spec.actK_eq_actH, reshape_at]
  refine congrArg Cert.Spec.actH (congrArg (· + x6 (ix1 ⟨(i 1).val, idx2_lt1 i⟩)) ?_)
  exact Finset.sum_congr rfl fun k _ => by rw [transpose_at]

end Cert.Rows

end
-- ==== Proof.Mlp0.lean ====
/-
  The first launch: the node projection.

  The launch walks the 20000 node rows in 10 blocks of 2000 rows. At block t it reads rows 2000 t … 2000 t + 1999 of the
  node features, the whole transposed weight matrix and the one-row bias (the same at every point), and writes the
  activation of the block's product plus bias back to the same rows of the result. Entry (p, q) of block t is entry
  (2000 t + p, q) of the array, and the sum over the contracted axis reads row 2000 t + p of the features, so each
  block is the restriction of one whole-array function. A row r lies in block r / 2000, so the blocks tile the array.
-/
import proofs.«108845_j30554397343953_1_alg».proof.Proof.Gen.KernelIdeal.Frame
import proofs.«108845_j30554397343953_1_alg».proof.Proof.Blk
import proofs.«108845_j30554397343953_1_alg».proof.Proof.Rows
import Idealize.ShloMosaic.Lib.Pipeline.Value

set_option maxRecDepth 16384

noncomputable section

namespace Cert.KernelIdeal.Mlp0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three operand arrays as the launch finds them, at their literal types. -/
abbrev xArr (c : Dev nD) : Vec Ideal S20000x256 .f32 := V c main_arg0
abbrev wArr (c : Dev nD) : Vec Ideal S256x256 .f32 := V c main_v0
abbrev bArr (c : Dev nD) : Vec Ideal S1x256 .f32 := V c main_v3

theorem origin : (![0, 0] : Fin 2 → Nat) = fun _ => 0 := funext fun a => by fin_cases a <;> rfl

/-- The index maps over the grid: the features' block moves with the output's (block row t, column 0); the matrix and
    the bias stay at block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the rows function of the operand arrays. -/
theorem flushed_eq (c : Dev nD) (t : Fin cfg0.N) :
    (dat0 V c).flushed 3 t = ((cfg0.win 3).blk t).view.read (Elt Ideal) (Cert.Rows.rowsG 20000 (xArr V c) (wArr V c) (bArr V c)) := by
  show (cfg0.win 3).cut (grid0.coords t) ((dat0 V c).after 3 t) = _
  rw [after0_3]
  unfold out0_3
  rw [View.canon_unit_zero origin]
  simp only [View.ld_unit_zero (S := S2000x256) origin, View.ld_unit_zero (S := S256x256) origin, View.ld_unit_zero (S := S1x256) origin]
  obtain ⟨e0, e1, e2, e3, e4, e5, e6, e7⟩ := idx_facts t
  funext j
  show k0_pay1 (iblk0 V c 0 t) (iblk0 V c 1 t) (iblk0 V c 2 t) j = _
  rw [Blk.k0_pay1_at]
  show Cert.Spec.actK ((∑ k : Fin 256, xArr V c (((cfg0.win 0).blk t).view.emb (ix2 ⟨(j 0).val, _⟩ k))
        * wArr V c (((cfg0.win 1).blk t).view.emb (ix2 k ⟨(j 1).val, _⟩)))
      + bArr V c (((cfg0.win 2).blk t).view.emb (ix2 (0 : Fin 1) ⟨(j 1).val, _⟩)))
    = Cert.Spec.actK ((∑ k : Fin 256, xArr V c (ix2 ⟨((((cfg0.win 3).blk t).view.emb j) 0).val, _⟩ k)
        * wArr V c (ix2 k ⟨((((cfg0.win 3).blk t).view.emb j) 1).val, _⟩))
      + bArr V c (ix2 (0 : Fin 1) ⟨((((cfg0.win 3).blk t).view.emb j) 1).val, _⟩))
  refine congrArg Cert.Spec.actK (congrArg₂ (· + ·) (Finset.sum_congr rfl fun k _ => congrArg₂ (· * ·) (congrArg (xArr V c) ?_) (congrArg (wArr V c) ?_)) (congrArg (bArr V c) ?_))
  · funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega
  · funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-- An index is in point t's block iff each coordinate is in the block's range on its axis. -/
theorem mem_blk (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v6).slice (win0_3.rect t)).set ↔ _
  rw [View.set_slice_whole, Rect.mem_set_unit]
  exact Iff.rfl

/-- Row r is in the block of point r / 2000. -/
theorem cover (i : S20000x256.Idx) : ∃ t : Fin cfg0.N, (cfg0.win 3).flush t = true ∧ i ∈ ((cfg0.win 3).blk t).view.set := by
  have hi0 : (i 0).val < 20000 := (i 0).isLt
  have hi1 : (i 1).val < 256 := (i 1).isLt
  have hlt : (i 0).val / 2000 < grid0.N := by rw [N_0]; omega
  obtain ⟨e0, e1, e2, e3, e4, e5, e6, e7⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hlt⟩ (1 : Fin 2) * 256 ≤ (i 1).val ∧ (i 1).val < win0_3.index ⟨(i 0).val / 2000, hlt⟩ (1 : Fin 2) * 256 + 256
    rw [e7]; omega

/-- The result array after the launch: the rows function of the operand arrays as the launch finds them. -/
theorem final (c : Dev nD) :
    (dat0 (F := Ideal) V c).arrAt 3 cfg0.N = Cert.Rows.rowsG 20000 (xArr V c) (wArr V c) (bArr V c) :=
  (dat0 V c).arrAt_eq_of_cover 3 _ (fun t _ => flushed_eq V c t) cover

end Cert.KernelIdeal.Mlp0

end
-- ==== Proof.Mlp1.lean ====
/-
  The second launch: the edge projection.

  The launch walks the 320000 edge rows in 160 blocks of 2000 rows. At block t it reads rows 2000 t … 2000 t + 1999 of the
  edge features, the whole transposed weight matrix and the one-row bias (the same at every point), and writes the
  activation of the block's product plus bias back to the same rows of the result. Entry (p, q) of block t is entry
  (2000 t + p, q) of the array, and the sum over the contracted axis reads row 2000 t + p of the features, so each
  block is the restriction of one whole-array function. A row r lies in block r / 2000, so the blocks tile the array.
-/
import proofs.«108845_j30554397343953_1_alg».proof.Proof.Gen.KernelIdeal.Frame
import proofs.«108845_j30554397343953_1_alg».proof.Proof.Blk
import proofs.«108845_j30554397343953_1_alg».proof.Proof.Rows
import Idealize.ShloMosaic.Lib.Pipeline.Value

set_option maxRecDepth 16384

noncomputable section

namespace Cert.KernelIdeal.Mlp1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The three operand arrays as the launch finds them, at their literal types. -/
abbrev xArr (c : Dev nD) : Vec Ideal S320000x256 .f32 := V c main_arg1
abbrev wArr (c : Dev nD) : Vec Ideal S256x256 .f32 := V c main_v1
abbrev bArr (c : Dev nD) : Vec Ideal S1x256 .f32 := V c main_v4

theorem origin : (![0, 0] : Fin 2 → Nat) = fun _ => 0 := funext fun a => by fin_cases a <;> rfl

/-- The index maps over the grid: the features' block moves with the output's (block row t, column 0); the matrix and
    the bias stay at block (0, 0). -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the rows function of the operand arrays. -/
theorem flushed_eq (c : Dev nD) (t : Fin cfg1.N) :
    (dat1 V c).flushed 3 t = ((cfg1.win 3).blk t).view.read (Elt Ideal) (Cert.Rows.rowsG 320000 (xArr V c) (wArr V c) (bArr V c)) := by
  show (cfg1.win 3).cut (grid1.coords t) ((dat1 V c).after 3 t) = _
  rw [after1_3]
  unfold out1_3
  rw [View.canon_unit_zero origin]
  simp only [View.ld_unit_zero (S := S2000x256) origin, View.ld_unit_zero (S := S256x256) origin, View.ld_unit_zero (S := S1x256) origin]
  obtain ⟨e0, e1, e2, e3, e4, e5, e6, e7⟩ := idx_facts t
  funext j
  show k1_pay1 (iblk1 V c 0 t) (iblk1 V c 1 t) (iblk1 V c 2 t) j = _
  rw [Blk.k1_pay1_at]
  show Cert.Spec.actK ((∑ k : Fin 256, xArr V c (((cfg1.win 0).blk t).view.emb (ix2 ⟨(j 0).val, _⟩ k))
        * wArr V c (((cfg1.win 1).blk t).view.emb (ix2 k ⟨(j 1).val, _⟩)))
      + bArr V c (((cfg1.win 2).blk t).view.emb (ix2 (0 : Fin 1) ⟨(j 1).val, _⟩)))
    = Cert.Spec.actK ((∑ k : Fin 256, xArr V c (ix2 ⟨((((cfg1.win 3).blk t).view.emb j) 0).val, _⟩ k)
        * wArr V c (ix2 k ⟨((((cfg1.win 3).blk t).view.emb j) 1).val, _⟩))
      + bArr V c (ix2 (0 : Fin 1) ⟨((((cfg1.win 3).blk t).view.emb j) 1).val, _⟩))
  refine congrArg Cert.Spec.actK (congrArg₂ (· + ·) (Finset.sum_congr rfl fun k _ => congrArg₂ (· * ·) (congrArg (xArr V c) ?_) (congrArg (wArr V c) ?_)) (congrArg (bArr V c) ?_))
  · funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 256 + 1 * k.val = k.val; omega
  · funext a; apply Fin.ext
    match a with
    | ⟨0, _⟩ => show win1_1.index t (0 : Fin 2) * 256 + 1 * k.val = k.val; omega
    | ⟨1, _⟩ => show win1_1.index t (1 : Fin 2) * 256 + 1 * (j 1).val = win1_3.index t (1 : Fin 2) * 256 + 1 * (j 1).val; omega
  · funext a; apply Fin.ext
    match a with
    | ⟨0, _⟩ => show win1_2.index t (0 : Fin 2) * 1 + 1 * 0 = 0; omega
    | ⟨1, _⟩ => show win1_2.index t (1 : Fin 2) * 256 + 1 * (j 1).val = win1_3.index t (1 : Fin 2) * 256 + 1 * (j 1).val; omega

/-- An index is in point t's block iff each coordinate is in the block's range on its axis. -/
theorem mem_blk (t : Fin cfg1.N) (i : S320000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v7).slice (win1_3.rect t)).set ↔ _
  rw [View.set_slice_whole, Rect.mem_set_unit]
  exact Iff.rfl

/-- Row r is in the block of point r / 2000. -/
theorem cover (i : S320000x256.Idx) : ∃ t : Fin cfg1.N, (cfg1.win 3).flush t = true ∧ i ∈ ((cfg1.win 3).blk t).view.set := by
  have hi0 : (i 0).val < 320000 := (i 0).isLt
  have hi1 : (i 1).val < 256 := (i 1).isLt
  have hlt : (i 0).val / 2000 < grid1.N := by rw [N_1]; omega
  obtain ⟨e0, e1, e2, e3, e4, e5, e6, e7⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 256 ≤ (i 1).val ∧ (i 1).val < win1_3.index ⟨(i 0).val / 2000, hlt⟩ (1 : Fin 2) * 256 + 256
    rw [e7]; omega

/-- The result array after the launch: the rows function of the operand arrays as the launch finds them. -/
theorem final (c : Dev nD) :
    (dat1 (F := Ideal) V c).arrAt 3 cfg1.N = Cert.Rows.rowsG 320000 (xArr V c) (wArr V c) (bArr V c) :=
  (dat1 V c).arrAt_eq_of_cover 3 _ (fun t _ => flushed_eq V c t) cover

end Cert.KernelIdeal.Mlp1

end
-- ==== Proof.Combine.lean ====
/-
  The third launch: every edge's message.

  The launch walks the 320000 edge rows in 160 blocks of 2000 rows. At block t it reads rows 2000 t … 2000 t + 1999 of
  the gathered source rows and of the edge projections, adds them entry by entry, clamps at zero, and writes the block
  back to the same rows of the result. A row r lies in block r / 2000 and in no other, so the blocks tile the array
  and the result is, at every entry, the clamped sum of the two operands' entries there.
-/
import proofs.«108845_j30554397343953_1_alg».proof.Proof.Gen.KernelIdeal.Frame
import proofs.«108845_j30554397343953_1_alg».proof.Proof.Blk
import Idealize.ShloMosaic.Lib.Pipeline.Value

set_option maxRecDepth 16384

noncomputable section

namespace Cert.KernelIdeal.Combine

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The two operand arrays as the launch finds them, at their literal type. -/
abbrev srcRows (c : Dev nD) : Vec Ideal S320000x256 .f32 := V c main_v14
abbrev edgeRows (c : Dev nD) : Vec Ideal S320000x256 .f32 := V c main_v7

theorem origin : (![0, 0] : Fin 2 → Nat) = fun _ => 0 := funext fun a => by fin_cases a <;> rfl

/-- The index maps over the grid: both inputs move with the output, whose block at point t is block row t, column 0. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point t writes back is block t of the clamped sum of the two operand arrays. -/
theorem flushed_eq (c : Dev nD) (t : Fin cfg2.N) :
    (dat2 V c).flushed 2 t = ((cfg2.win 2).blk t).view.read (Elt Ideal) (Cert.Spec.reluSum 320000 (V c main_v14) (V c main_v7)) := by
  show (cfg2.win 2).cut (grid2.coords t) ((dat2 V c).after 2 t) = _
  rw [after2_2]
  unfold out2_2
  rw [View.canon_unit_zero origin]
  simp only [View.ld_unit_zero (S := S2000x256) origin]
  obtain ⟨e0, e1, e2, e3, e4, e5⟩ := idx_facts t
  funext j
  show k2_pay1 (iblk2 V c 0 t) (iblk2 V c 1 t) j = _
  rw [Blk.k2_pay1_apply]
  show max (srcRows V c (((cfg2.win 0).blk t).view.emb j) + edgeRows V c (((cfg2.win 1).blk t).view.emb j)) Cert.Spec.z0
    = max (srcRows V c (((cfg2.win 2).blk t).view.emb j) + edgeRows V c (((cfg2.win 2).blk t).view.emb j)) Cert.Spec.z0
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * (j 1).val = win2_2.index t (1 : Fin 2) * 256 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 256 + 1 * (j 1).val = win2_2.index t (1 : Fin 2) * 256 + 1 * (j 1).val; omega
  rw [h0, h1]

/-- An index is in point t's block iff each coordinate is in the block's range on its axis. -/
theorem mem_blk (t : Fin cfg2.N) (i : S320000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v15).slice (win2_2.rect t)).set ↔ _
  rw [View.set_slice_whole, Rect.mem_set_unit]
  exact Iff.rfl

/-- Row r is in the block of point r / 2000. -/
theorem cover (i : S320000x256.Idx) : ∃ t : Fin cfg2.N, (cfg2.win 2).flush t = true ∧ i ∈ ((cfg2.win 2).blk t).view.set := by
  have hi0 : (i 0).val < 320000 := (i 0).isLt
  have hi1 : (i 1).val < 256 := (i 1).isLt
  have hlt : (i 0).val / 2000 < grid2.N := by rw [N_2]; omega
  obtain ⟨e0, e1, e2, e3, e4, e5⟩ := idx_facts ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 256 ≤ (i 1).val ∧ (i 1).val < win2_2.index ⟨(i 0).val / 2000, hlt⟩ (1 : Fin 2) * 256 + 256
    rw [e5]; omega

/-- The result array after the launch: the clamped sum of the two operand arrays as the launch finds them. -/
theorem final (c : Dev nD) :
    (dat2 (F := Ideal) V c).arrAt 2 cfg2.N = Cert.Spec.reluSum 320000 (V c main_v14) (V c main_v7) :=
  (dat2 V c).arrAt_eq_of_cover 2 _ (fun t _ => flushed_eq V c t) cover

end Cert.KernelIdeal.Combine

end
-- ==== Proof.Final.lean ====
/-
  The last launch: the output projection.

  The launch walks the 20000 node rows in 10 blocks of 2000 rows. At block t it reads rows 2000 t … 2000 t + 1999 of the
  node projections and of the summed messages, the whole transposed output matrix and its one-row bias, adds the two
  row blocks entry by entry, and writes the activation of that sum's product with the matrix plus the bias back to the
  same rows of the result. As in the first launch each block is the restriction of one whole-array function, here the
  rows function of the entrywise sum of the two arrays, and the blocks tile the array.
-/
import proofs.«108845_j30554397343953_1_alg».proof.Proof.Gen.KernelIdeal.Frame
import proofs.«108845_j30554397343953_1_alg».proof.Proof.Blk
import proofs.«108845_j30554397343953_1_alg».proof.Proof.Rows
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The four operand arrays as the launch finds them, at their literal types. -/
abbrev xArr (c : Dev nD) : Vec Ideal S20000x256 .f32 := V c main_v6
abbrev aArr (c : Dev nD) : Vec Ideal S20000x256 .f32 := V c main_v18
abbrev wArr (c : Dev nD) : Vec Ideal S256x256 .f32 := V c main_v2
abbrev bArr (c : Dev nD) : Vec Ideal S1x256 .f32 := V c main_v5

theorem origin : (![0, 0] : Fin 2 → Nat) = fun _ => 0 := funext fun a => by fin_cases a <;> rfl

/-- The index maps over the grid: both row operands move with the output (block row t, column 0); the matrix and the
    bias stay at block (0, 0). -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the rows function of the two row operands' sum. -/
theorem flushed_eq (c : Dev nD) (t : Fin cfg3.N) :
    (dat3 V c).flushed 4 t = ((cfg3.win 4).blk t).view.read (Elt Ideal)
      (Cert.Rows.rowsG 20000 (Cert.Spec.sum2 20000 (xArr V c) (aArr V c)) (wArr V c) (bArr V c)) := by
  show (cfg3.win 4).cut (grid3.coords t) ((dat3 V c).after 4 t) = _
  rw [after3_4]
  unfold out3_4
  rw [View.canon_unit_zero origin]
  simp only [View.ld_unit_zero (S := S2000x256) origin, View.ld_unit_zero (S := S256x256) origin, View.ld_unit_zero (S := S1x256) origin]
  obtain ⟨e0, e1, e2, e3, e4, e5, e6, e7, e8, e9⟩ := idx_facts t
  funext j
  show k3_pay1 (iblk3 V c 0 t) (iblk3 V c 1 t) (iblk3 V c 2 t) (iblk3 V c 3 t) j = _
  rw [Blk.k3_pay1_at]
  show Cert.Spec.actK ((∑ k : Fin 256, (xArr V c (((cfg3.win 0).blk t).view.emb (ix2 ⟨(j 0).val, _⟩ k))
          + aArr V c (((cfg3.win 1).blk t).view.emb (ix2 ⟨(j 0).val, _⟩ k)))
        * wArr V c (((cfg3.win 2).blk t).view.emb (ix2 k ⟨(j 1).val, _⟩)))
      + bArr V c (((cfg3.win 3).blk t).view.emb (ix2 (0 : Fin 1) ⟨(j 1).val, _⟩)))
    = Cert.Spec.actK ((∑ k : Fin 256, (xArr V c (ix2 ⟨((((cfg3.win 4).blk t).view.emb j) 0).val, _⟩ k)
          + aArr V c (ix2 ⟨((((cfg3.win 4).blk t).view.emb j) 0).val, _⟩ k))
        * wArr V c (ix2 k ⟨((((cfg3.win 4).blk t).view.emb j) 1).val, _⟩))
      + bArr V c (ix2 (0 : Fin 1) ⟨((((cfg3.win 4).blk t).view.emb j) 1).val, _⟩))
  refine congrArg Cert.Spec.actK (congrArg₂ (· + ·) (Finset.sum_congr rfl fun k _ => congrArg₂ (· * ·)
    (congrArg₂ (· + ·) (congrArg (xArr V c) ?_) (congrArg (aArr V c) ?_)) (congrArg (wArr V c) ?_)) (congrArg (bArr V c) ?_))
  · funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 256 + 1 * k.val = k.val; omega
  · funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 256 + 1 * k.val = k.val; omega
  · funext a; apply Fin.ext
    match a with
    | ⟨0, _⟩ => show win3_2.index t (0 : Fin 2) * 256 + 1 * k.val = k.val; omega
    | ⟨1, _⟩ => show win3_2.index t (1 : Fin 2) * 256 + 1 * (j 1).val = win3_4.index t (1 : Fin 2) * 256 + 1 * (j 1).val; omega
  · funext a; apply Fin.ext
    match a with
    | ⟨0, _⟩ => show win3_3.index t (0 : Fin 2) * 1 + 1 * 0 = 0; omega
    | ⟨1, _⟩ => show win3_3.index t (1 : Fin 2) * 256 + 1 * (j 1).val = win3_4.index t (1 : Fin 2) * 256 + 1 * (j 1).val; omega

/-- An index is in point t's block iff each coordinate is in the block's range on its axis. -/
theorem mem_blk (t : Fin cfg3.N) (i : S20000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v19).slice (win3_4.rect t)).set ↔ _
  rw [View.set_slice_whole, Rect.mem_set_unit]
  exact Iff.rfl

/-- Row r is in the block of point r / 2000. -/
theorem cover (i : S20000x256.Idx) : ∃ t : Fin cfg3.N, (cfg3.win 4).flush t = true ∧ i ∈ ((cfg3.win 4).blk t).view.set := by
  have hi0 : (i 0).val < 20000 := (i 0).isLt
  have hi1 : (i 1).val < 256 := (i 1).isLt
  have hlt : (i 0).val / 2000 < grid3.N := by rw [N_3]; omega
  obtain ⟨e0, e1, e2, e3, e4, e5, e6, e7, e8, e9⟩ := idx_facts ⟨(i 0).val / 2000, hlt⟩
  refine ⟨⟨(i 0).val / 2000, hlt⟩, flush3_4 _, ?_⟩
  rw [mem_blk]
  intro a
  match a with
  | ⟨0, _⟩ =>
    show win3_4.index ⟨(i 0).val / 2000, hlt⟩ (0 : Fin 2) * 2000 ≤ (i 0).val ∧ (i 0).val < win3_4.index ⟨(i 0).val / 2000, hlt⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, hlt⟩ (1 : Fin 2) * 256 ≤ (i 1).val ∧ (i 1).val < win3_4.index ⟨(i 0).val / 2000, hlt⟩ (1 : Fin 2) * 256 + 256
    rw [e9]; omega

/-- The result array after the launch: the rows function of the two row operands' sum, the matrix and the bias as
    the launch finds them. -/
theorem final (c : Dev nD) :
    (dat3 (F := Ideal) V c).arrAt 4 cfg3.N = Cert.Rows.rowsG 20000 (Cert.Spec.sum2 20000 (xArr V c) (aArr V c)) (wArr V c) (bArr V c) :=
  (dat3 V c).arrAt_eq_of_cover 4 _ (fun t _ => flushed_eq V c t) cover

end Cert.KernelIdeal.Final

end
-- ==== Proof.KValue.lean ====
/-
  The program's result as one function of its arguments.

  Between the launches the host only moves values: it transposes the three weight matrices and reshapes the three
  biases before the first launch, gathers one projected node row per edge (an index below zero wraps once by the number
  of nodes) before the third, and adds every message into its destination node's row of a zero array before the
  fourth. A buffer that a stretch of host operations does not write, and that a launch does not have among its arrays,
  keeps its contents across it. Reading the result buffer back through the four launches and the three host stretches
  therefore gives: the output projection of (node projection + scattered messages), the messages being the clamped sums
  of the gathered node projections and the edge projections.
-/
import proofs.«108845_j30554397343953_1_alg».proof.Proof.Gen.KernelIdeal.Frame
import proofs.«108845_j30554397343953_1_alg».proof.Proof.Mlp0
import proofs.«108845_j30554397343953_1_alg».proof.Proof.Mlp1
import proofs.«108845_j30554397343953_1_alg».proof.Proof.Combine
import proofs.«108845_j30554397343953_1_alg».proof.Proof.Final
import proofs.«108845_j30554397343953_1_alg».proof.Proof.Rows
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- A stretch of host operations leaves a buffer none of them writes as it was. -/
local macro "host_pass " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- One projected node row per edge, as the program spells it: an index below zero wraps once by the number of nodes. -/
def gatherK (x : (⟨S20000x256, .f32⟩ : BufTy).Contents (Elt Ideal)) (x3 : (⟨S320000, .i32⟩ : BufTy).Contents (Elt Ideal)) :
    (⟨S320000x256, .f32⟩ : BufTy).Contents (Elt Ideal) :=
  Host.gather gather_S20000x256_S320000x1_S320000x256_1_0_n_n_0_1_1256 x
    (broadcastInDim S320000x1 ![0] bcast_S320000_S320000x1_0
      (select (cmpi .slt x3 (broadcastInDim S320000 ![] bcast_S_S320000 (constantI S_ 32 0#32)))
        (addi x3 (broadcastInDim S320000 ![] bcast_S_S320000 (constantI S_ 32 20000#32))) x3))

/-- Every message added into its destination node's row of a zero array. -/
def scatterK (x4 : (⟨S320000, .i32⟩ : BufTy).Contents (Elt Ideal)) (u : (⟨S320000x256, .f32⟩ : BufTy).Contents (Elt Ideal)) :
    (⟨S20000x256, .f32⟩ : BufTy).Contents (Elt Ideal) :=
  Host.scatterAdd scatter_S20000x256_S320000x1_S320000x256_1_0_0_1
    (broadcastInDim S20000x256 ![] bcast_S_S20000x256 (constant (F := Ideal) S_ .f32 0x00000000#32))
    (broadcastInDim S320000x1 ![0] bcast_S320000_S320000x1_0 x4) u

/-! ## Before the first launch: the transposes and the reshapes; the arguments untouched -/

theorem W1_v0 (c : Dev nD) : W1 m ρ c (Proc.devRef .tc main_v0)
    = transpose S256x256 [1, 0] (m ((c : Thread nD τ).loc main_arg5)) transposes_S256x256_S256x256_1_0 := by
  show StableHlo.after hostOps0 (W0 m ρ c) (Proc.devRef .tc main_v0) = _
  after_results
theorem W1_v1 (c : Dev nD) : W1 m ρ c (Proc.devRef .tc main_v1)
    = transpose S256x256 [1, 0] (m ((c : Thread nD τ).loc main_arg7)) transposes_S256x256_S256x256_1_0 := by
  show StableHlo.after hostOps0 (W0 m ρ c) (Proc.devRef .tc main_v1) = _
  after_results
theorem W1_v2 (c : Dev nD) : W1 m ρ c (Proc.devRef .tc main_v2)
    = transpose S256x256 [1, 0] (m ((c : Thread nD τ).loc main_arg9)) transposes_S256x256_S256x256_1_0 := by
  show StableHlo.after hostOps0 (W0 m ρ c) (Proc.devRef .tc main_v2) = _
  after_results
theorem W1_v3 (c : Dev nD) : W1 m ρ c (Proc.devRef .tc main_v3)
    = shapeCast S1x256 (m ((c : Thread nD τ).loc main_arg6)) shapeCasts_S256_S1x256 := by
  show StableHlo.after hostOps0 (W0 m ρ c) (Proc.devRef .tc main_v3) = _
  after_results
  rfl
theorem W1_v4 (c : Dev nD) : W1 m ρ c (Proc.devRef .tc main_v4)
    = shapeCast S1x256 (m ((c : Thread nD τ).loc main_arg8)) shapeCasts_S256_S1x256 := by
  show StableHlo.after hostOps0 (W0 m ρ c) (Proc.devRef .tc main_v4) = _
  after_results
  rfl
theorem W1_v5 (c : Dev nD) : W1 m ρ c (Proc.devRef .tc main_v5)
    = shapeCast S1x256 (m ((c : Thread nD τ).loc main_arg10)) shapeCasts_S256_S1x256 := by
  show StableHlo.after hostOps0 (W0 m ρ c) (Proc.devRef .tc main_v5) = _
  after_results
  rfl
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by host_pass hostOps0).trans rfl
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by host_pass hostOps0).trans rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by host_pass hostOps0).trans rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by host_pass hostOps0).trans rfl

/-! ## The first launch: the node projection -/

theorem W2_v6 (c : Dev nD) : W2 m ρ c (Proc.devRef .tc main_v6)
    = Cert.Spec.mlpG 20000 (m ((c : Thread nD τ).loc main_arg0)) (m ((c : Thread nD τ).loc main_arg5)) (m ((c : Thread nD τ).loc main_arg6)) := by
  refine (W2_arr m ρ c 3).trans ?_
  rw [Mlp0.final (V1 m ρ) c]
  show Cert.Rows.rowsG 20000 (W1 m ρ c (Proc.devRef .tc main_arg0)) (W1 m ρ c (Proc.devRef .tc main_v0)) (W1 m ρ c (Proc.devRef .tc main_v3)) = _
  rw [W1_arg0, W1_v0, W1_v3]
  exact Cert.Rows.rowsG_eq 20000 _ _ _ _ _

/-! ## The second launch: the edge projection -/

theorem W3_v7 (c : Dev nD) : W3 m ρ c (Proc.devRef .tc main_v7)
    = Cert.Spec.mlpG 320000 (m ((c : Thread nD τ).loc main_arg1)) (m ((c : Thread nD τ).loc main_arg7)) (m ((c : Thread nD τ).loc main_arg8)) := by
  refine (W3_arr m ρ c 3).trans ?_
  rw [Mlp1.final (V2 m ρ) c]
  show Cert.Rows.rowsG 320000 (W2 m ρ c (Proc.devRef .tc main_arg1)) (W2 m ρ c (Proc.devRef .tc main_v1)) (W2 m ρ c (Proc.devRef .tc main_v4)) = _
  rw [W2_of_ne m ρ c main_arg1 (by decide), W2_of_ne m ρ c main_v1 (by decide), W2_of_ne m ρ c main_v4 (by decide), W1_arg1, W1_v1, W1_v4]
  exact Cert.Rows.rowsG_eq 320000 _ _ _ _ _

theorem W3_v6 (c : Dev nD) : W3 m ρ c (Proc.devRef .tc main_v6)
    = Cert.Spec.mlpG 20000 (m ((c : Thread nD τ).loc main_arg0)) (m ((c : Thread nD τ).loc main_arg5)) (m ((c : Thread nD τ).loc main_arg6)) :=
  (W3_of_ne m ρ c main_v6 (by decide)).trans (W2_v6 m ρ c)

theorem W3_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_arg3 m ρ c))

/-! ## Before the third launch: the gather -/

theorem W4_v14 (c : Dev nD) : W4 m ρ c (Proc.devRef .tc main_v14)
    = gatherK (Cert.Spec.mlpG 20000 (m ((c : Thread nD τ).loc main_arg0)) (m ((c : Thread nD τ).loc main_arg5)) (m ((c : Thread nD τ).loc main_arg6)))
        (m ((c : Thread nD τ).loc main_arg3)) := by
  have e : W4 m ρ c (Proc.devRef .tc main_v14)
      = gatherK (W3 m ρ c (Proc.devRef .tc main_v6)) (W3 m ρ c (Proc.devRef .tc main_arg3)) := by
    show StableHlo.after hostOps2 (W3 m ρ c) (Proc.devRef .tc main_v14) = _
    after_results
    rfl
  rw [e, W3_v6, W3_arg3]

theorem W4_v7 (c : Dev nD) : W4 m ρ c (Proc.devRef .tc main_v7)
    = Cert.Spec.mlpG 320000 (m ((c : Thread nD τ).loc main_arg1)) (m ((c : Thread nD τ).loc main_arg7)) (m ((c : Thread nD τ).loc main_arg8)) :=
  (show W4 m ρ c (Proc.devRef .tc main_v7) = W3 m ρ c (Proc.devRef .tc main_v7) by host_pass hostOps2).trans (W3_v7 m ρ c)

/-! ## The third launch: the messages -/

theorem W5_v15 (c : Dev nD) : W5 m ρ c (Proc.devRef .tc main_v15)
    = Cert.Spec.reluSum 320000
        (gatherK (Cert.Spec.mlpG 20000 (m ((c : Thread nD τ).loc main_arg0)) (m ((c : Thread nD τ).loc main_arg5)) (m ((c : Thread nD τ).loc main_arg6)))
          (m ((c : Thread nD τ).loc main_arg3)))
        (Cert.Spec.mlpG 320000 (m ((c : Thread nD τ).loc main_arg1)) (m ((c : Thread nD τ).loc main_arg7)) (m ((c : Thread nD τ).loc main_arg8))) := by
  refine (W5_arr m ρ c 2).trans ?_
  rw [Combine.final (V4 m ρ) c]
  show Cert.Spec.reluSum 320000 (W4 m ρ c (Proc.devRef .tc main_v14)) (W4 m ρ c (Proc.devRef .tc main_v7)) = _
  rw [W4_v14, W4_v7]

/-- A buffer that no launch has among its arrays and no host stretch writes, read at the fourth launch's entry, is what the
    first host stretch left in it. -/
theorem W6_v2 (c : Dev nD) : W6 m ρ c (Proc.devRef .tc main_v2)
    = transpose S256x256 [1, 0] (m ((c : Thread nD τ).loc main_arg9)) transposes_S256x256_S256x256_1_0 :=
  calc W6 m ρ c (Proc.devRef .tc main_v2)
    _ = W5 m ρ c (Proc.devRef .tc main_v2) := by host_pass hostOps3
    _ = W4 m ρ c (Proc.devRef .tc main_v2) := W5_of_ne m ρ c main_v2 (by decide)
    _ = W3 m ρ c (Proc.devRef .tc main_v2) := by host_pass hostOps2
    _ = W2 m ρ c (Proc.devRef .tc main_v2) := W3_of_ne m ρ c main_v2 (by decide)
    _ = W1 m ρ c (Proc.devRef .tc main_v2) := W2_of_ne m ρ c main_v2 (by decide)
    _ = _ := W1_v2 m ρ c
theorem W6_v5 (c : Dev nD) : W6 m ρ c (Proc.devRef .tc main_v5)
    = shapeCast S1x256 (m ((c : Thread nD τ).loc main_arg10)) shapeCasts_S256_S1x256 :=
  calc W6 m ρ c (Proc.devRef .tc main_v5)
    _ = W5 m ρ c (Proc.devRef .tc main_v5) := by host_pass hostOps3
    _ = W4 m ρ c (Proc.devRef .tc main_v5) := W5_of_ne m ρ c main_v5 (by decide)
    _ = W3 m ρ c (Proc.devRef .tc main_v5) := by host_pass hostOps2
    _ = W2 m ρ c (Proc.devRef .tc main_v5) := W3_of_ne m ρ c main_v5 (by decide)
    _ = W1 m ρ c (Proc.devRef .tc main_v5) := W2_of_ne m ρ c main_v5 (by decide)
    _ = _ := W1_v5 m ρ c
theorem W6_v6 (c : Dev nD) : W6 m ρ c (Proc.devRef .tc main_v6)
    = Cert.Spec.mlpG 20000 (m ((c : Thread nD τ).loc main_arg0)) (m ((c : Thread nD τ).loc main_arg5)) (m ((c : Thread nD τ).loc main_arg6)) :=
  calc W6 m ρ c (Proc.devRef .tc main_v6)
    _ = W5 m ρ c (Proc.devRef .tc main_v6) := by host_pass hostOps3
    _ = W4 m ρ c (Proc.devRef .tc main_v6) := W5_of_ne m ρ c main_v6 (by decide)
    _ = W3 m ρ c (Proc.devRef .tc main_v6) := by host_pass hostOps2
    _ = _ := W3_v6 m ρ c
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := by host_pass hostOps2
    _ = W2 m ρ c (Proc.devRef .tc main_arg4) := W3_of_ne m ρ c main_arg4 (by decide)
    _ = W1 m ρ c (Proc.devRef .tc main_arg4) := W2_of_ne m ρ c main_arg4 (by decide)
    _ = _ := W1_arg4 m ρ c

/-! ## Before the fourth launch: the scatter-add -/

/-- The messages, as one function of the arguments. -/
def messages (c : Dev nD) : (⟨S320000x256, .f32⟩ : BufTy).Contents (Elt Ideal) :=
  Cert.Spec.reluSum 320000
    (gatherK (Cert.Spec.mlpG 20000 (m ((c : Thread nD τ).loc main_arg0)) (m ((c : Thread nD τ).loc main_arg5)) (m ((c : Thread nD τ).loc main_arg6)))
      (m ((c : Thread nD τ).loc main_arg3)))
    (Cert.Spec.mlpG 320000 (m ((c : Thread nD τ).loc main_arg1)) (m ((c : Thread nD τ).loc main_arg7)) (m ((c : Thread nD τ).loc main_arg8)))

theorem W6_v18 (c : Dev nD) : W6 m ρ c (Proc.devRef .tc main_v18)
    = scatterK (m ((c : Thread nD τ).loc main_arg4)) (messages m c) := by
  have e : W6 m ρ c (Proc.devRef .tc main_v18)
      = scatterK (W5 m ρ c (Proc.devRef .tc main_arg4)) (W5 m ρ c (Proc.devRef .tc main_v15)) := by
    show StableHlo.after hostOps3 (W5 m ρ c) (Proc.devRef .tc main_v18) = _
    after_results
    rfl
  rw [e, W5_arg4, W5_v15]
  rfl

/-! ## The fourth launch: the result -/

/-- The program's result: the output projection of the node projection plus the scattered messages. -/
def result (c : Dev nD) : (⟨S20000x256, .f32⟩ : BufTy).Contents (Elt Ideal) :=
  Cert.Spec.mlpG 20000
    (Cert.Spec.sum2 20000
      (Cert.Spec.mlpG 20000 (m ((c : Thread nD τ).loc main_arg0)) (m ((c : Thread nD τ).loc main_arg5)) (m ((c : Thread nD τ).loc main_arg6)))
      (scatterK (m ((c : Thread nD τ).loc main_arg4)) (messages m c)))
    (m ((c : Thread nD τ).loc main_arg9)) (m ((c : Thread nD τ).loc main_arg10))

theorem W7_v19 (c : Dev nD) : W7 m ρ c (Proc.devRef .tc main_v19) = result m c := by
  refine (W7_arr m ρ c 4).trans ?_
  rw [Final.final (V6 m ρ) c]
  show Cert.Rows.rowsG 20000 (Cert.Spec.sum2 20000 (W6 m ρ c (Proc.devRef .tc main_v6)) (W6 m ρ c (Proc.devRef .tc main_v18)))
    (W6 m ρ c (Proc.devRef .tc main_v2)) (W6 m ρ c (Proc.devRef .tc main_v5)) = _
  rw [W6_v6, W6_v18, W6_v2, W6_v5]
  exact Cert.Rows.rowsG_eq 20000 _ _ _ _ _

end Cert.KernelIdeal.KValue

end
-- ==== Proof.RefStage.lean ====
import proofs.«108845_j30554397343953_1_alg».proof.Proof.Gen.ReferenceIdeal.Read
import proofs.«108845_j30554397343953_1_alg».proof.Proof.Spec

noncomputable section

namespace Cert.RefStage

open Cert.ReferenceIdeal Cert.ReferenceIdeal.Read Idealize.ShloMosaic Idealize.ShloMosaic.ValueIdx

/-! # The reference's stages are the layer's functions

Each of the reference's three affine-plus-activation stages, read at an index, is the sum over the contracted axis of
input row times weight row, plus the bias entry, through the activation; the transposed weight read at (k, q) is the
weight at (q, k), and the bias broadcast to the rows is read at the column. The edge stage is the entrywise sum
clamped at zero, and the last stage's input is the entrywise sum of the node stage and the scattered messages. -/

/-- The node stage: entry (r, q) is a (Σ_k x0[r, k] · x5[q, k] + x6[q]). -/
theorem v7_eq (x0 : (⟨S20000x256, .f32⟩ : BufTy).Contents (Elt Ideal)) (x5 : (⟨S256x256, .f32⟩ : BufTy).Contents (Elt Ideal))
    (x6 : (⟨S256, .f32⟩ : BufTy).Contents (Elt Ideal)) :
    val_main_v7 (F := Ideal) x0 x5 x6 = Cert.Spec.mlpG 20000 x0 x5 x6 := by
  funext i
  -- the left operand is read at (row of i, k); the transposed weight at (k, column of i) is the weight at (column of i, k);
  -- the bias, broadcast through a one-row array, is read at the column of i
  have el : ∀ k : Fin 256, lidx_main_v1 i k = ix2 ⟨(i 0).val, idx2_lt0 i⟩ k := fun k =>
    funext fun a => by match a with | ⟨0, _⟩ => rfl | ⟨1, _⟩ => rfl
  have er : ∀ k : Fin 256, idx_main_v0 (ridx_main_v1 i k) = ix2 ⟨(i 1).val, idx2_lt1 i⟩ k := fun k =>
    funext fun a => by match a with | ⟨0, _⟩ => rfl | ⟨1, _⟩ => rfl
  have eb : idx_main_v2 (idx_main_v3 i) = ix1 ⟨(i 1).val, idx2_lt1 i⟩ :=
    funext fun a => by match a with | ⟨0, _⟩ => rfl
  -- the affine map at i
  have h4 : val_main_v4 (F := Ideal) x0 x5 x6 i
      = (∑ k : Fin 256, x0 (ix2 ⟨(i 0).val, idx2_lt0 i⟩ k) * x5 (ix2 ⟨(i 1).val, idx2_lt1 i⟩ k))
        + x6 (ix1 ⟨(i 1).val, idx2_lt1 i⟩) := by
    rw [val_main_v4_apply, val_main_v1_apply, val_main_v3_apply, val_main_v2_apply, eb]
    simp only [val_main_v0_apply, el, er]
    rfl
  -- the activation's operations, each read at i, down to the affine map and the zero constant
  rw [val_main_v7_apply, val_main_v6_apply, val_main_v5_apply, val_main_call0_v4_apply, val_main_call0_v6_apply,
    val_main_call0_v11_apply, val_main_call0_v10_apply, val_main_call0_v9_apply, val_main_call0_v8_apply,
    val_main_call0_v7_apply, val_main_call0_v3_apply, val_main_call0_v1_apply, val_main_call0_v0_apply,
    val_main_call0_v2_apply, val_main_call0_v5_apply, val_main_call0_cst_apply, h4]
  unfold Cert.Spec.mlpG
  generalize (∑ k : Fin 256, x0 (ix2 ⟨(i 0).val, idx2_lt0 i⟩ k) * x5 (ix2 ⟨(i 1).val, idx2_lt1 i⟩ k))
    + x6 (ix1 ⟨(i 1).val, idx2_lt1 i⟩) = z
  rfl

/-- The edge stage: entry (e, q) is a (Σ_k x1[e, k] · x7[q, k] + x8[q]). -/
theorem v15_eq (x1 : (⟨S320000x256, .f32⟩ : BufTy).Contents (Elt Ideal)) (x7 : (⟨S256x256, .f32⟩ : BufTy).Contents (Elt Ideal))
    (x8 : (⟨S256, .f32⟩ : BufTy).Contents (Elt Ideal)) :
    val_main_v15 (F := Ideal) x1 x7 x8 = Cert.Spec.mlpG 320000 x1 x7 x8 := by
  funext i
  have el : ∀ k : Fin 256, lidx_main_v9 i k = ix2 ⟨(i 0).val, idx2_lt0 i⟩ k := fun k =>
    funext fun a => by match a with | ⟨0, _⟩ => rfl | ⟨1, _⟩ => rfl
  have er : ∀ k : Fin 256, idx_main_v8 (ridx_main_v9 i k) = ix2 ⟨(i 1).val, idx2_lt1 i⟩ k := fun k =>
    funext fun a => by match a with | ⟨0, _⟩ => rfl | ⟨1, _⟩ => rfl
  have eb : idx_main_v10 (idx_main_v11 i) = ix1 ⟨(i 1).val, idx2_lt1 i⟩ :=
    funext fun a => by match a with | ⟨0, _⟩ => rfl
  have h12 : val_main_v12 (F := Ideal) x1 x7 x8 i
      = (∑ k : Fin 256, x1 (ix2 ⟨(i 0).val, idx2_lt0 i⟩ k) * x7 (ix2 ⟨(i 1).val, idx2_lt1 i⟩ k))
        + x8 (ix1 ⟨(i 1).val, idx2_lt1 i⟩) := by
    rw [val_main_v12_apply, val_main_v9_apply, val_main_v11_apply, val_main_v10_apply, eb]
    simp only [val_main_v8_apply, el, er]
    rfl
  rw [val_main_v15_apply, val_main_v14_apply, val_main_v13_apply, val_main_call1_v4_apply, val_main_call1_v6_apply,
    val_main_call1_v11_apply, val_main_call1_v10_apply, val_main_call1_v9_apply, val_main_call1_v8_apply,
    val_main_call1_v7_apply, val_main_call1_v3_apply, val_main_call1_v1_apply, val_main_call1_v0_apply,
    val_main_call1_v2_apply, val_main_call1_v5_apply, val_main_call1_cst_apply, h12]
  unfold Cert.Spec.mlpG
  generalize (∑ k : Fin 256, x1 (ix2 ⟨(i 0).val, idx2_lt0 i⟩ k) * x7 (ix2 ⟨(i 1).val, idx2_lt1 i⟩ k))
    + x8 (ix1 ⟨(i 1).val, idx2_lt1 i⟩) = z
  rfl

/-- The messages: the gathered node rows plus the edge rows, clamped at zero. The gathered array stays an opaque
    term: which row it reads depends on the index array's values. -/
theorem v24_eq (x0 : (⟨S20000x256, .f32⟩ : BufTy).Contents (Elt Ideal)) (x1 : (⟨S320000x256, .f32⟩ : BufTy).Contents (Elt Ideal))
    (x3 : (⟨S320000, .i32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) :
    val_main_v24 (F := Ideal) x0 x1 x3 x5 x6 x7 x8
      = Cert.Spec.reluSum 320000 (val_main_v22 (F := Ideal) x0 x3 x5 x6) (val_main_v15 (F := Ideal) x1 x7 x8) := by
  funext i
  rw [val_main_v24_apply, val_main_v23_apply, val_main_call2_v0_apply, val_main_call2_cst_apply]
  generalize val_main_v22 (F := Ideal) x0 x3 x5 x6 = g
  generalize val_main_v15 (F := Ideal) x1 x7 x8 = y
  rfl

/-- The output stage: entry (r, q) is a (Σ_k (node stage + scattered messages)[r, k] · x9[q, k] + x10[q]). The
    scattered sum stays an opaque term: which rows it adds depends on the index array's values. -/
theorem v36_eq (x0 : (⟨S20000x256, .f32⟩ : BufTy).Contents (Elt Ideal)) (x1 : (⟨S320000x256, .f32⟩ : BufTy).Contents (Elt Ideal))
    (x3 x4 : (⟨S320000, .i32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) :
    val_main_v36 (F := Ideal) x0 x1 x3 x4 x5 x6 x7 x8 x9 x10
      = Cert.Spec.mlpG 20000 (Cert.Spec.sum2 20000 (val_main_v7 (F := Ideal) x0 x5 x6)
          (val_main_v27 (F := Ideal) x0 x1 x3 x4 x5 x6 x7 x8)) x9 x10 := by
  funext i
  have el : ∀ k : Fin 256, lidx_main_v30 i k = ix2 ⟨(i 0).val, idx2_lt0 i⟩ k := fun k =>
    funext fun a => by match a with | ⟨0, _⟩ => rfl | ⟨1, _⟩ => rfl
  have er : ∀ k : Fin 256, idx_main_v29 (ridx_main_v30 i k) = ix2 ⟨(i 1).val, idx2_lt1 i⟩ k := fun k =>
    funext fun a => by match a with | ⟨0, _⟩ => rfl | ⟨1, _⟩ => rfl
  have eb : idx_main_v31 (idx_main_v32 i) = ix1 ⟨(i 1).val, idx2_lt1 i⟩ :=
    funext fun a => by match a with | ⟨0, _⟩ => rfl
  have h33 : val_main_v33 (F := Ideal) x0 x1 x3 x4 x5 x6 x7 x8 x9 x10 i
      = (∑ k : Fin 256, Cert.Spec.sum2 20000 (val_main_v7 (F := Ideal) x0 x5 x6)
            (val_main_v27 (F := Ideal) x0 x1 x3 x4 x5 x6 x7 x8) (ix2 ⟨(i 0).val, idx2_lt0 i⟩ k)
          * x9 (ix2 ⟨(i 1).val, idx2_lt1 i⟩ k))
        + x10 (ix1 ⟨(i 1).val, idx2_lt1 i⟩) := by
    rw [val_main_v33_apply, val_main_v30_apply, val_main_v32_apply, val_main_v31_apply, eb]
    simp only [val_main_v29_apply, val_main_v28_apply, el, er]
    generalize val_main_v7 (F := Ideal) x0 x5 x6 = g
    generalize val_main_v27 (F := Ideal) x0 x1 x3 x4 x5 x6 x7 x8 = s
    rfl
  rw [val_main_v36_apply, val_main_v35_apply, val_main_v34_apply, val_main_call3_v4_apply, val_main_call3_v6_apply,
    val_main_call3_v11_apply, val_main_call3_v10_apply, val_main_call3_v9_apply, val_main_call3_v8_apply,
    val_main_call3_v7_apply, val_main_call3_v3_apply, val_main_call3_v1_apply, val_main_call3_v0_apply,
    val_main_call3_v2_apply, val_main_call3_v5_apply, val_main_call3_cst_apply, h33]
  unfold Cert.Spec.mlpG
  generalize (∑ k : Fin 256, Cert.Spec.sum2 20000 (val_main_v7 (F := Ideal) x0 x5 x6)
        (val_main_v27 (F := Ideal) x0 x1 x3 x4 x5 x6 x7 x8) (ix2 ⟨(i 0).val, idx2_lt0 i⟩ k)
      * x9 (ix2 ⟨(i 1).val, idx2_lt1 i⟩ k))
    + x10 (ix1 ⟨(i 1).val, idx2_lt1 i⟩) = z
  rfl

end Cert.RefStage

end
-- ==== Proof.lean ====
/-
  The two programs compute one function.

  Both are a message-passing layer over 20000 nodes and 320000 edges with 256 features: node and edge features go
  through an affine map and the activation a(z) = z · tanh (softplus z); every edge's message is its source node's
  projected row plus its own, clamped at zero; the messages are summed into their destination nodes; and the node
  projections plus those sums go through a third affine map and the activation. The kernel computes the three affine
  stages and the clamped sum in row blocks of 2000, each block contracting the whole 256-long axis, so no sum is
  regrouped: on the extended reals each stage's array is the reference's, entry by entry, and no finiteness of the inputs
  is needed. The gather and the scatter-add are the same host operations in both programs and are carried as opaque
  functions of equal operands. The idealization rewrote no operation, so there is nothing to preserve.
-/
import proofs.«108845_j30554397343953_1_alg».proof.Defs
import proofs.«108845_j30554397343953_1_alg».proof.Proof.Gen.Kernel
import proofs.«108845_j30554397343953_1_alg».proof.Proof.Gen.Kernel.Frame
import proofs.«108845_j30554397343953_1_alg».proof.Proof.Gen.KernelIdeal
import proofs.«108845_j30554397343953_1_alg».proof.Proof.Gen.KernelIdeal.Frame
import proofs.«108845_j30554397343953_1_alg».proof.Proof.Gen.ReferenceIdeal
import proofs.«108845_j30554397343953_1_alg».proof.Proof.Gen.Pre_finite_inputs
import proofs.«108845_j30554397343953_1_alg».proof.Proof.Gen.ReferenceIdeal.Run
import proofs.«108845_j30554397343953_1_alg».proof.Proof.Gen.ReferenceIdeal.Read
import proofs.«108845_j30554397343953_1_alg».proof.Proof.KRun
import proofs.«108845_j30554397343953_1_alg».proof.Proof.KValue
import proofs.«108845_j30554397343953_1_alg».proof.Proof.RefStage
import Idealize.ShloMosaic.Adequacy
import Idealize.ShloMosaic.Init

set_option maxRecDepth 16384

noncomputable section

namespace Cert.Proof

open Idealize.ShloMosaic Idealize.ShloMosaic.TcCoe Idealize.SL.Sem

/-! ## The host operations the two programs share -/

/-- The reference's gather of one projected node row per edge is the kernel program's: the same operation on the same
    wrapped indices. -/
theorem gather_eq (x : (⟨Cert.ReferenceIdeal.S20000x256, .f32⟩ : BufTy).Contents (Elt Ideal))
    (x3 : (⟨Cert.ReferenceIdeal.S320000, .i32⟩ : BufTy).Contents (Elt Ideal)) :
    Host.gather Cert.ReferenceIdeal.gather_S20000x256_S320000x1_S320000x256_1_0_n_n_0_1_1256 x (Cert.ReferenceIdeal.Read.val_main_v21 (F := Ideal) x3)
      = Cert.KernelIdeal.KValue.gatherK x x3 := rfl

/-- The reference's scatter-add of the messages into a zero array is the kernel program's. -/
theorem scatter_eq (x4 : (⟨Cert.ReferenceIdeal.S320000, .i32⟩ : BufTy).Contents (Elt Ideal))
    (u : (⟨Cert.ReferenceIdeal.S320000x256, .f32⟩ : BufTy).Contents (Elt Ideal)) :
    Host.scatterAdd (F := Ideal) (φ := .f32) Cert.ReferenceIdeal.scatter_S20000x256_S320000x1_S320000x256_1_0_0_1 (Cert.ReferenceIdeal.Read.val_main_v25 (F := Ideal))
        (Cert.ReferenceIdeal.Read.val_main_v26 (F := Ideal) x4) u
      = Cert.KernelIdeal.KValue.scatterK x4 u := rfl

/-! ## The reference's result is the kernel program's function of the arguments -/

theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v36 (F := Ideal) m' c = Cert.KernelIdeal.KValue.result m c := by
  rw [Cert.ReferenceIdeal.Read.val_main_v36_eq, h0, h1, h3, h4, h5, h6, h7, h8, h9, h10, Cert.RefStage.v36_eq, Cert.RefStage.v7_eq]
  unfold Cert.ReferenceIdeal.Read.val_main_v27
  rw [scatter_eq, Cert.RefStage.v24_eq, Cert.RefStage.v15_eq]
  unfold Cert.ReferenceIdeal.Read.val_main_v22
  rw [Cert.RefStage.v7_eq, gather_eq]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, both programs end with the layer's function of the arguments in
    their result arrays. -/
theorem algebraic : Cert.algebraic_KernelIdeal_ReferenceIdeal := by
  intro m ρ m' ρ' _ hagree
  refine ⟨fun c => Cert.KernelIdeal.KValue.result m c, ?_, ?_⟩
  · exact (θ_run Cert.KernelIdeal.defs _ _).mono
      (fun r h c => ⟨(h c).1.trans (Cert.KernelIdeal.KValue.W7_v19 m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    exact ref_result m m' c h0 h1 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
